-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4x2048x2048 : Shape := ⟨3, ![4, 2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn_part1 {F : FTy → Type} [FloatOps F] (main_arg4 : FVec F S4x2048x2048 .f32) (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  let main_v19 : FVec F S4x2048x2048 .f32 := Host.absf main_arg4
  let main_cst_6 : FVec F S_ .f32 := constant S_ .f32 0x7F800000#32
  let main_v20 : FVec F S4x2048x2048 .f32 := broadcastInDim S4x2048x2048 ![] bcast_S_S4x2048x2048 main_cst_6
  let main_v21 : IVec S4x2048x2048 1 := cmpf .olt main_v19 main_v20
  let main_c_7 : IVec S_ 1 := constantI S_ 1 1#1
  let main_v22 : IVec S_ 1 := (fun x v => Host.reduce IntOp.andi x v reducesTo_S4x2048x2048_S_d0_1_2 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S4096x2048 .f32) (main_arg3 : FVec F S4x2048x2048 .f32) (main_arg4 : FVec F S4x2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_arg4 main_v13 main_v16
-- ==== Kernel.lean ====
abbrev S4096x2048 : Shape := ⟨2, ![4096, 2048]⟩
abbrev S4x2048x2048 : Shape := ⟨3, ![4, 2048, 2048]⟩
abbrev S512x2048 : Shape := ⟨2, ![512, 2048]⟩
abbrev S512x256 : Shape := ⟨2, ![512, 256]⟩
abbrev S4x256x2048 : Shape := ⟨3, ![4, 256, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x2048x2048, .f32⟩
  | .hbm, ⟨4, _⟩ => ⟨S4x2048x2048, .f32⟩
  | .hbm, ⟨5, _⟩ => ⟨S4096x2048, .f32⟩
  | .hbm, ⟨6, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S4x256x2048, .f32⟩
  | .local _ .vmem, ⟨7, _⟩ => ⟨S4x256x2048, .f32⟩
  | .local _ .vmem, ⟨8, _⟩ => ⟨S4x256x2048, .f32⟩
  | .local _ .vmem, ⟨9, _⟩ => ⟨S4x256x2048, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S4x256x2048_S4x256x2048_0_0_0 : ∀ a, (![0, 0, 0] : Fin 3 → Nat) a + S4x256x2048.size a ≤ S4x256x2048.size a
  h_S4x256x2048 : 0 < S4x256x2048.numel
  inb_S512x256_S512x256_0_0 : ∀ a, (![0, 0] : Fin 2 → Nat) a + S512x256.size a ≤ S512x256.size a
  h_S512x256 : 0 < S512x256.numel
  slices_S4x256x2048_o0_0_0_S1x256x2048 : S4x256x2048.Slices ![0, 0, 0] S1x256x2048
  shapeCasts_S1x256x2048_S256x2048 : S1x256x2048.ShapeCasts S256x2048
  slices_S4x256x2048_o1_0_0_S1x256x2048 : S4x256x2048.Slices ![1, 0, 0] S1x256x2048
  slices_S4x256x2048_o2_0_0_S1x256x2048 : S4x256x2048.Slices ![2, 0, 0] S1x256x2048
  slices_S4x256x2048_o3_0_0_S1x256x2048 : S4x256x2048.Slices ![3, 0, 0] S1x256x2048
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x2048.size a ≤ S4x2048x2048.size a
  hwx0_3 : ∀ i : grid0.Coords, EltTy.bits .f32 = 32 ∨ (Rect.block (s := S4x2048x2048) S4x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x2048.size a ≤ S4x2048x2048.size a
  hwx0_4 : ∀ i : grid0.Coords, EltTy.bits .f32 = 32 ∨ (Rect.block (s := S4x2048x2048) S4x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x2048.size a
  hwx0_5 : ∀ i : grid0.Coords, EltTy.bits .f32 = 32 ∨ (Rect.block (s := S4096x2048) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x2048.size a
  hwx0_6 : ∀ i : grid0.Coords, EltTy.bits .f32 = 32 ∨ (Rect.block (s := S4096x2048) S512x256.size (cc0_transform_6 i) (hinb0_6 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4x2048x2048 : Shape := ⟨3, ![4, 2048, 2048]⟩
abbrev S4x2048x4096 : Shape := ⟨3, ![4, 2048, 4096]⟩
abbrev S4x4096x2048 : Shape := ⟨3, ![4, 4096, 2048]⟩
abbrev S1x4096x2048 : Shape := ⟨3, ![1, 4096, 2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x2048x2048, .f32⟩
  | .hbm, ⟨4, _⟩ => ⟨S4x2048x2048, .f32⟩
  | .hbm, ⟨5, _⟩ => ⟨S4x2048x4096, .f32⟩
  | .hbm, ⟨6, _⟩ => ⟨S4x4096x2048, .f32⟩
  | .hbm, ⟨7, _⟩ => ⟨S4x2048x4096, .f32⟩
  | .hbm, ⟨8, _⟩ => ⟨S4x4096x2048, .f32⟩
  | .hbm, ⟨9, _⟩ => ⟨S4x4096x2048, .f32⟩
  | .hbm, ⟨10, _⟩ => ⟨S1x4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S1x4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S1x4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S1x4096x2048, .f32⟩
  | .hbm, ⟨41, _⟩ => ⟨S4096x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_cst_6 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_cst_8 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]

class Facts₀ : Prop where
  transposes_S4x2048x4096_S4x4096x2048_0_2_1 : S4x2048x4096.Transposes [0, 2, 1] S4x4096x2048
  slices_S4x4096x2048_S1x4096x2048_0_0_0 : S4x4096x2048.Slices ![0, 0, 0] S1x4096x2048
  shapeCasts_S1x4096x2048_S4096x2048 : S1x4096x2048.ShapeCasts S4096x2048
  bcast_S_S4096x2048 : S_.BroadcastsInDim S4096x2048 (![] : Fin 0 → Fin S4096x2048.rank)
  slices_S4x4096x2048_S1x4096x2048_1_0_0 : S4x4096x2048.Slices ![1, 0, 0] S1x4096x2048
  slices_S4x4096x2048_S1x4096x2048_2_0_0 : S4x4096x2048.Slices ![2, 0, 0] S1x4096x2048
  slices_S4x4096x2048_S1x4096x2048_3_0_0 : S4x4096x2048.Slices ![3, 0, 0] S1x4096x2048
  dot_S4x2048x2048_S4096x2048_S4x2048x4096_2_1_01_0_n_n_wf : DotDims.WF S4x2048x2048 S4096x2048 S4x2048x4096 [2] [1] [0, 1] [0] [] []

variable [Facts₀]

def dot_S4x2048x2048_S4096x2048_S4x2048x4096_2_1_01_0_n_n : DotDims S4x2048x2048 S4096x2048 S4x2048x4096 where
  lhsContracting := [2]
  rhsContracting := [1]
  lhsNonContracting := [0, 1]
  rhsNonContracting := [0]
  lhsBatch := []
  rhsBatch := []
  wf := dot_S4x2048x2048_S4096x2048_S4x2048x4096_2_1_01_0_n_n_wf

class Facts : Prop extends Facts₀ where

variable [Facts]
-- ==== Proof.LstmSpec.lean ====
/-
  One step of an LSTM cell whose candidate and whose output use the clip to [-1, 1] in place of tanh, as a
  function of its argument arrays, element by element, on the extended reals.

  Arrays: the input `x` and the hidden state `st`, both [4096, 2048] (batch × features); the cell `cell`,
  [4096, 2048] (batch × hidden); two weight stacks `Win`, `Wh`, both [4, 2048, 2048] (gate × hidden × features),
  the four gates in the order forget, input, output, candidate.

  For batch row `b` and hidden unit `h`, gate `g`'s logit is
      z_g = Σ_k x[b,k] · Win[g,h,k]  +  Σ_k st[b,k] · Wh[g,h,k],
  the new cell is        c' = σ(z_0) · cell[b,h] + σ(z_1) · clip(z_3),
  and the new state is   s' = σ(z_2) · clip(c'),
  with σ(z) = 1 / (1 + e^(-z)) and clip(z) = min(1, max(-1, z)).

  Everything is stated first over the ROWS an element depends on (`logit`, `cellOf`, `stateOf`: functions of two
  feature rows, one cell entry and two 4 × 2048 families of weight rows), so that a block of the arrays and the
  whole arrays are read by the same definitions; `newCell` and `newState` are these at the rows of the whole arrays.
  No law of arithmetic is used here: both programs spell exactly these sums, up to the order of the two factors
  of each product, which is where the reference is met.
-/
import Idealize.ShloMosaic.PureOps.Ideal
import Idealize.ShloMosaic.Lib.ValueIdx

noncomputable section

namespace Cert.Lstm

open Idealize.ShloMosaic Idealize.ShloMosaic.ValueIdx

/-- The word of `1.0` denotes the extended real 1. -/
theorem ofBits_one : Ideal.ofBits .f32 0x3F800000#32 = 1 := by
  simp [Ideal.ofBits, Ideal.ieee, -EReal.coe_mul]; norm_num

/-- A gate's logit from the rows it reads: the input row against the gate's input weights for the hidden unit,
    plus the state row against its recurrent weights. -/
def logit (xr sr wi wh : Fin 2048 → EReal) : EReal :=
  (∑ k : Fin 2048, xr k * wi k) + ∑ k : Fin 2048, sr k * wh k

/-- The clip to [-1, 1], its two bounds the words of `1.0` and `-1.0`: the lower bound first, then the upper. -/
def clip (z : EReal) : EReal :=
  min (Ideal.ofBits .f32 0x3F800000#32) (max (Ideal.ofBits .f32 0xBF800000#32) z)

/-- The new cell entry: forget gate times the old cell, plus input gate times the clipped candidate. -/
def cellOf (xr sr : Fin 2048 → EReal) (cl : EReal) (wi wh : Fin 4 → Fin 2048 → EReal) : EReal :=
  Ideal.logistic (logit xr sr (wi 0) (wh 0)) * cl
    + Ideal.logistic (logit xr sr (wi 1) (wh 1)) * clip (logit xr sr (wi 3) (wh 3))

/-- The new state entry: output gate times the clipped new cell. -/
def stateOf (xr sr : Fin 2048 → EReal) (cl : EReal) (wi wh : Fin 4 → Fin 2048 → EReal) : EReal :=
  Ideal.logistic (logit xr sr (wi 2) (wh 2)) * clip (cellOf xr sr cl wi wh)

theorem cellOf_congr {xr xr' sr sr' : Fin 2048 → EReal} {cl cl' : EReal} {wi wi' wh wh' : Fin 4 → Fin 2048 → EReal}
    (h1 : xr = xr') (h2 : sr = sr') (h3 : cl = cl') (h4 : wi = wi') (h5 : wh = wh') :
    cellOf xr sr cl wi wh = cellOf xr' sr' cl' wi' wh' := by
  subst h1 h2 h3 h4 h5; rfl

theorem stateOf_congr {xr xr' sr sr' : Fin 2048 → EReal} {cl cl' : EReal} {wi wi' wh wh' : Fin 4 → Fin 2048 → EReal}
    (h1 : xr = xr') (h2 : sr = sr') (h3 : cl = cl') (h4 : wi = wi') (h5 : wh = wh') :
    stateOf xr sr cl wi wh = stateOf xr' sr' cl' wi' wh' := by
  subst h1 h2 h3 h4 h5; rfl

/-- The shapes of the whole arrays. -/
abbrev SBH : Shape := ⟨2, ![4096, 2048]⟩
abbrev SW : Shape := ⟨3, ![4, 2048, 2048]⟩

/-- The new cell at batch row `b`, hidden unit `h`, of the whole arrays. -/
def newCellAt (x st cell : SBH.Idx → EReal) (Win Wh : SW.Idx → EReal) (b : Fin 4096) (h : Fin 2048) : EReal :=
  cellOf (fun k => x (ix2 b k)) (fun k => st (ix2 b k)) (cell (ix2 b h))
    (fun g k => Win (ix3 g h k)) (fun g k => Wh (ix3 g h k))

/-- The new state at batch row `b`, hidden unit `h`, of the whole arrays. -/
def newStateAt (x st cell : SBH.Idx → EReal) (Win Wh : SW.Idx → EReal) (b : Fin 4096) (h : Fin 2048) : EReal :=
  stateOf (fun k => x (ix2 b k)) (fun k => st (ix2 b k)) (cell (ix2 b h))
    (fun g k => Win (ix3 g h k)) (fun g k => Wh (ix3 g h k))

/-- The new cell array. -/
def newCell (x st cell : SBH.Idx → EReal) (Win Wh : SW.Idx → EReal) : SBH.Idx → EReal :=
  fun i => newCellAt x st cell Win Wh (i 0) (i 1)

/-- The new state array. -/
def newState (x st cell : SBH.Idx → EReal) (Win Wh : SW.Idx → EReal) : SBH.Idx → EReal :=
  fun i => newStateAt x st cell Win Wh (i 0) (i 1)

end Cert.Lstm

end
-- ==== Proof.KernelPoint.lean ====
/-
  The kernel body's arithmetic read at one element of its [512, 256] output block, over arbitrary blocks of the
  literal shapes: `x0`, `x1` the [512, 2048] blocks of the input and of the state, `x2` the [512, 256] block of the
  cell, `x3`, `x4` the [4, 256, 2048] blocks of the two weight stacks.

  Each of the body's eight matrix products contracts the feature axis of a [512, 2048] block with the feature axis of
  one gate's [256, 2048] slab of a weight block, into a zero accumulator: at (p, q) it is the sum over k of
  block[p, k] · slab[q, k] (`matmul_rows`); the slab of gate g is the weight block at (g, ·, ·) (`slab_apply`: a
  unit slice along the gate axis, then the cast that drops that axis); the change of float format is the
  identity. So a gate's logit at (p, q) is `Lstm.logit` of row p of the two feature blocks and of row (g, q) of the
  two weight blocks (`gate_logit`), and the two stored values are `Lstm.cellOf` and `Lstm.stateOf` of those rows and of
  the cell block's entry (`cell_apply`, `state_apply`).
-/
import proofs.«136638_j51969104281664_1_alg».proof.Proof.Gen.KernelIdeal.Skeleton
import proofs.«136638_j51969104281664_1_alg».proof.Proof.LstmSpec
import Idealize.ShloMosaic.Lib.Pipeline.Value
import Idealize.ShloMosaic.Lib.ValueIdx
import Idealize.ShloMosaic.PureOps.Ideal.Laws

noncomputable section

namespace Cert.KernelIdeal.Point

open Cert.KernelIdeal Cert.KernelIdeal.Gen Idealize.ShloMosaic Idealize.ShloMosaic.TcCoe Idealize.ShloMosaic.ValueIdx

/-! ## The matrix product at an element -/

theorem lhs_dot_0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_dot_1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhs_dot_0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_dot_1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- A [512, 2048] block against a [256, 2048] slab, both contracted along their feature axis, into the zero
    accumulator: at (p, q) the sum over the features of the two rows' products. -/
theorem matmul_rows (A : FVec Ideal S512x2048 .bf16) (B : FVec Ideal S256x2048 .bf16) (p : Fin 512) (q : Fin 256) :
    matmul dot_S512x2048_S256x2048_S512x256_1_1_0_0_n_n none A B (constant (F := Ideal) S512x256 .f32 0x00000000#32) (ix2 p q)
      = ∑ k : Fin 2048, A (ix2 p k) * B (ix2 q k) := by
  simp only [matmul]
  rw [Ideal.matmul_constant_zero_apply, ← Equiv.sum_comp (ValueIdx.contrEquiv1 dot_S512x2048_S256x2048_S512x256_1_1_0_0_n_n 2048 rfl rfl).symm]
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx (ix2 p q) ((ValueIdx.contrEquiv1 dot_S512x2048_S256x2048_S512x256_1_1_0_0_n_n 2048 rfl rfl).symm k) = ix2 p k := funext fun a => Fin.ext (by
    match a with
    | ⟨0, _⟩ => exact lhs_dot_0 _ _
    | ⟨1, _⟩ => exact (lhs_dot_1 _ _).trans hk)
  have er : dot_S512x2048_S256x2048_S512x256_1_1_0_0_n_n.rhsIdx (ix2 p q) ((ValueIdx.contrEquiv1 dot_S512x2048_S256x2048_S512x256_1_1_0_0_n_n 2048 rfl rfl).symm k) = ix2 q k := funext fun a => Fin.ext (by
    match a with
    | ⟨0, _⟩ => exact rhs_dot_0 _ _
    | ⟨1, _⟩ => exact (rhs_dot_1 _ _).trans hk)
  rw [el, er]

/-! ## One gate's slab of a weight block -/

/-- The unit slice of a [4, 256, 2048] block at gate `g`, its gate axis dropped, read at (q, k), is the block at
    (g, q, k). -/
theorem slab_apply (x : FVec Ideal S4x256x2048 .bf16) (g : Fin 4) (off : Fin S4x256x2048.rank → Nat)
    (hoff : off = ![g.val, 0, 0]) (hs : S4x256x2048.Slices off S1x256x2048) (q : Fin 256) (k : Fin 2048) :
    shapeCast S256x2048 (extractStridedSlice S1x256x2048 off x hs) shapeCasts_S1x256x2048_S256x2048 (ix2 q k)
      = x (ix3 g q k) := by
  subst hoff
  refine (shapeCast_apply _ shapeCasts_S1x256x2048_S256x2048 (ix2 q k) (ix3 (0 : Fin 1) q k) ?_).trans ?_
  · rw [Shape.rowMajor_val_three, Shape.rowMajor_val_two]
    show (0 * 256 + q.val) * 2048 + k.val = q.val * 2048 + k.val
    omega
  · exact extractStridedSlice_apply _ x hs (ix3 (0 : Fin 1) q k) (ix3 g q k) (fun a => match a with
      | ⟨0, _⟩ => by show g.val = g.val + 0; omega
      | ⟨1, _⟩ => by show q.val = 0 + q.val; omega
      | ⟨2, _⟩ => by show k.val = 0 + k.val; omega)

/-! ## A gate's logit -/

theorem logistic_apply (a : FVec Ideal S512x256 .f32) (i : S512x256.Idx) : logistic a i = Ideal.logistic (a i) := rfl

/-- Gate `g`'s logit at (p, q): the two products, added. -/
theorem gate_logit (x0 x1 : Vec Ideal S512x2048 .f32) (x3 x4 : Vec Ideal S4x256x2048 .f32) (g : Fin 4)
    (off : Fin S4x256x2048.rank → Nat) (hoff : off = ![g.val, 0, 0]) (hs : S4x256x2048.Slices off S1x256x2048)
    (p : Fin 512) (q : Fin 256) :
    addf (matmul dot_S512x2048_S256x2048_S512x256_1_1_0_0_n_n none (truncf .bf16 x0 bitsLt_bf16_f32)
            (shapeCast S256x2048 (extractStridedSlice S1x256x2048 off (truncf .bf16 x3 bitsLt_bf16_f32) hs) shapeCasts_S1x256x2048_S256x2048)
            (constant (F := Ideal) S512x256 .f32 0x00000000#32))
         (matmul dot_S512x2048_S256x2048_S512x256_1_1_0_0_n_n none (truncf .bf16 x1 bitsLt_bf16_f32)
            (shapeCast S256x2048 (extractStridedSlice S1x256x2048 off (truncf .bf16 x4 bitsLt_bf16_f32) hs) shapeCasts_S1x256x2048_S256x2048)
            (constant (F := Ideal) S512x256 .f32 0x00000000#32)) (ix2 p q)
      = Lstm.logit (fun k => x0 (ix2 p k)) (fun k => x1 (ix2 p k)) (fun k => x3 (ix3 g q k)) (fun k => x4 (ix3 g q k)) := by
  rw [addf_apply, matmul_rows, matmul_rows]
  unfold Lstm.logit
  congr 1 <;> refine Finset.sum_congr rfl fun k _ => ?_ <;> rw [slab_apply _ g off hoff hs] <;> rfl

/-! ## The payloads -/

/-- The forget gate at (p, q). -/
theorem forget_apply (x0 x1 : Vec Ideal S512x2048 .f32) (x3 x4 : Vec Ideal S4x256x2048 .f32) (p : Fin 512) (q : Fin 256) :
    k0_pay7 x0 x1 x3 x4 (ix2 p q)
      = Ideal.logistic (Lstm.logit (fun k => x0 (ix2 p k)) (fun k => x1 (ix2 p k)) (fun k => x3 (ix3 0 q k)) (fun k => x4 (ix3 0 q k))) := by
  unfold k0_pay7 k0_pay3 k0_pay4 k0_pay5 k0_pay6
  exact congrArg Ideal.logistic (gate_logit x0 x1 x3 x4 0 _ rfl _ p q)

/-- The input gate at (p, q). -/
theorem input_apply (x0 x1 : Vec Ideal S512x2048 .f32) (x3 x4 : Vec Ideal S4x256x2048 .f32) (p : Fin 512) (q : Fin 256) :
    k0_pay8 x0 x1 x3 x4 (ix2 p q)
      = Ideal.logistic (Lstm.logit (fun k => x0 (ix2 p k)) (fun k => x1 (ix2 p k)) (fun k => x3 (ix3 1 q k)) (fun k => x4 (ix3 1 q k))) := by
  unfold k0_pay8 k0_pay3 k0_pay4 k0_pay5 k0_pay6
  exact congrArg Ideal.logistic (gate_logit x0 x1 x3 x4 1 _ rfl _ p q)

/-- The output gate at (p, q). -/
theorem output_apply (x0 x1 : Vec Ideal S512x2048 .f32) (x3 x4 : Vec Ideal S4x256x2048 .f32) (p : Fin 512) (q : Fin 256) :
    k0_pay9 x0 x1 x3 x4 (ix2 p q)
      = Ideal.logistic (Lstm.logit (fun k => x0 (ix2 p k)) (fun k => x1 (ix2 p k)) (fun k => x3 (ix3 2 q k)) (fun k => x4 (ix3 2 q k))) := by
  unfold k0_pay9 k0_pay3 k0_pay4 k0_pay5 k0_pay6
  exact congrArg Ideal.logistic (gate_logit x0 x1 x3 x4 2 _ rfl _ p q)

/-- The candidate's input half at (p, q): the input row against the candidate's input weights. -/
theorem cand_in_apply (x0 : Vec Ideal S512x2048 .f32) (x3 : Vec Ideal S4x256x2048 .f32) (p : Fin 512) (q : Fin 256) :
    k0_pay10 x0 x3 (ix2 p q) = ∑ k : Fin 2048, x0 (ix2 p k) * x3 (ix3 3 q k) := by
  unfold k0_pay10 k0_pay3 k0_pay5
  dsimp only
  rw [matmul_rows]
  refine Finset.sum_congr rfl fun k _ => ?_
  exact congrArg (x0 (ix2 p k) * ·) (slab_apply _ 3 _ rfl _ q k)

/-- The candidate's recurrent weights' slab at (q, k). -/
theorem cand_slab_apply (x4 : Vec Ideal S4x256x2048 .f32) (q : Fin 256) (k : Fin 2048) :
    k0_pay11 x4 (ix2 q k) = x4 (ix3 3 q k) := by
  unfold k0_pay11 k0_pay6
  exact slab_apply _ 3 _ rfl _ q k

/-- The value stored to the new cell's block, at (p, q). -/
theorem cell_apply (x0 x1 : Vec Ideal S512x2048 .f32) (x2 : Vec Ideal S512x256 .f32) (x3 x4 : Vec Ideal S4x256x2048 .f32)
    (p : Fin 512) (q : Fin 256) :
    k0_pay1 (k0_pay4 x1) x2 (k0_pay7 x0 x1 x3 x4) (k0_pay8 x0 x1 x3 x4) (k0_pay10 x0 x3) (k0_pay11 x4)
        (constant (F := Ideal) S512x256 .f32 0x00000000#32) (ix2 p q)
      = Lstm.cellOf (fun k => x0 (ix2 p k)) (fun k => x1 (ix2 p k)) (x2 (ix2 p q))
          (fun g k => x3 (ix3 g q k)) (fun g k => x4 (ix3 g q k)) := by
  unfold k0_pay1
  try dsimp only
  rw [addf_apply, mulf_apply, mulf_apply, minimumf_apply, maximumf_apply, broadcast_apply, broadcast_apply, addf_apply,
    forget_apply, input_apply, cand_in_apply, matmul_rows]
  unfold Lstm.cellOf Lstm.clip
  have e : (∑ k : Fin 2048, (k0_pay4 x1) (ix2 p k) * (k0_pay11 x4) (ix2 q k)) = ∑ k : Fin 2048, x1 (ix2 p k) * x4 (ix3 3 q k) :=
    Finset.sum_congr rfl fun k _ => by rw [cand_slab_apply]; rfl
  rw [e]
  rfl

/-- The value stored to the new state's block, at (p, q). -/
theorem state_apply (x0 x1 : Vec Ideal S512x2048 .f32) (x2 : Vec Ideal S512x256 .f32) (x3 x4 : Vec Ideal S4x256x2048 .f32)
    (p : Fin 512) (q : Fin 256) :
    k0_pay2 (k0_pay4 x1) x2 (k0_pay7 x0 x1 x3 x4) (k0_pay8 x0 x1 x3 x4) (k0_pay9 x0 x1 x3 x4) (k0_pay10 x0 x3) (k0_pay11 x4)
        (constant (F := Ideal) S512x256 .f32 0x00000000#32) (ix2 p q)
      = Lstm.stateOf (fun k => x0 (ix2 p k)) (fun k => x1 (ix2 p k)) (x2 (ix2 p q))
          (fun g k => x3 (ix3 g q k)) (fun g k => x4 (ix3 g q k)) := by
  unfold k0_pay2
  try dsimp only
  rw [mulf_apply, minimumf_apply, maximumf_apply, broadcast_apply, broadcast_apply, output_apply, cell_apply]
  rfl

/-- `cell_apply` at any index of the block. -/
theorem cell_block (x0 x1 : Vec Ideal S512x2048 .f32) (x2 : Vec Ideal S512x256 .f32) (x3 x4 : Vec Ideal S4x256x2048 .f32)
    (y : S512x256.Idx) :
    k0_pay1 (k0_pay4 x1) x2 (k0_pay7 x0 x1 x3 x4) (k0_pay8 x0 x1 x3 x4) (k0_pay10 x0 x3) (k0_pay11 x4)
        (constant (F := Ideal) S512x256 .f32 0x00000000#32) y
      = Lstm.cellOf (fun k => x0 (ix2 (y 0) k)) (fun k => x1 (ix2 (y 0) k)) (x2 y)
          (fun g k => x3 (ix3 g (y 1) k)) (fun g k => x4 (ix3 g (y 1) k)) := by
  obtain ⟨p, q, rfl⟩ : ∃ (p : Fin 512) (q : Fin 256), y = ix2 p q := ⟨y 0, y 1, eq_ix2 y⟩
  exact cell_apply x0 x1 x2 x3 x4 p q

/-- `state_apply` at any index of the block. -/
theorem state_block (x0 x1 : Vec Ideal S512x2048 .f32) (x2 : Vec Ideal S512x256 .f32) (x3 x4 : Vec Ideal S4x256x2048 .f32)
    (y : S512x256.Idx) :
    k0_pay2 (k0_pay4 x1) x2 (k0_pay7 x0 x1 x3 x4) (k0_pay8 x0 x1 x3 x4) (k0_pay9 x0 x1 x3 x4) (k0_pay10 x0 x3) (k0_pay11 x4)
        (constant (F := Ideal) S512x256 .f32 0x00000000#32) y
      = Lstm.stateOf (fun k => x0 (ix2 (y 0) k)) (fun k => x1 (ix2 (y 0) k)) (x2 y)
          (fun g k => x3 (ix3 g (y 1) k)) (fun g k => x4 (ix3 g (y 1) k)) := by
  obtain ⟨p, q, rfl⟩ : ∃ (p : Fin 512) (q : Fin 256), y = ix2 p q := ⟨y 0, y 1, eq_ix2 y⟩
  exact state_apply x0 x1 x2 x3 x4 p q

end Cert.KernelIdeal.Point

end
-- ==== Proof.KernelWhole.lean ====
/-
  From the kernel's blocks to its two result arrays.

  The grid is 8 × 8: point `t` is (hidden tile j, batch tile i), the hidden tile the slow coordinate. At `t` the body
  reads rows 512·i … 512·i + 511 of the input and of the state (all 2048 features), the [512, 256] block (i, j) of the
  cell, and of each weight stack the rows 256·j … 256·j + 255 of all four gates (all 2048 features), and writes block
  (i, j) of each result. The relations between the seven printed index maps are decided once over the 64 points
  (`idx_facts`), as is that every block (i, j) is some point's (`idx_onto`).

  An entry (p, q) of the written block depends on row p of the two feature blocks, on the cell block's entry (p, q)
  and on row (g, q) of the weight blocks; those are rows 512·i + p of the feature arrays, entry (512·i + p, 256·j + q)
  of the cell array and rows (g, 256·j + q) of the weight arrays (`feature_row`, `state_row`, `cell_entry`,
  `in_weight_row`, `rec_weight_row`). So what `t` writes back is block `t` of `Lstm.newState`, `Lstm.newCell` of the
  whole argument arrays (`flushed_state`, `flushed_cell`); the 64 blocks tile [4096, 2048] (`cover_state`,
  `cover_cell`), so each result array ends holding that function (`final_state`, `final_cell`, `run`).
-/
import proofs.«136638_j51969104281664_1_alg».proof.Proof.Gen.KernelIdeal.Value
import proofs.«136638_j51969104281664_1_alg».proof.Proof.KernelPoint
import Idealize.ShloMosaic.Lib.Pipeline.Value
import Idealize.ShloMosaic.Lib.Tactic

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps over the grid -/

/-- With (i, j) the cell window's block index at `t`: the feature windows sit at block row i, the weight windows at
    block row j of every gate, both result windows at (i, j); i and j stay below 8. -/
theorem idx_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_3.index t (0 : Fin 3) = 0 ∧ win0_3.index t (1 : Fin 3) = win0_2.index t (1 : Fin 2) ∧ win0_3.index t (2 : Fin 3) = 0
    ∧ win0_4.index t (0 : Fin 3) = 0 ∧ win0_4.index t (1 : Fin 3) = win0_2.index t (1 : Fin 2) ∧ win0_4.index t (2 : Fin 3) = 0
    ∧ win0_5.index t (0 : Fin 2) = win0_2.index t (0 : Fin 2) ∧ win0_5.index t (1 : Fin 2) = win0_2.index t (1 : Fin 2)
    ∧ win0_6.index t (0 : Fin 2) = win0_2.index t (0 : Fin 2) ∧ win0_6.index t (1 : Fin 2) = win0_2.index t (1 : Fin 2)
    ∧ win0_2.index t (0 : Fin 2) ≤ 7 ∧ win0_2.index t (1 : Fin 2) ≤ 7 :=
  (by decide +kernel : ∀ t : Fin grid0.N, _)

/-- Every block (i, j), i, j < 8, is some point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-! ## The blocks as rows of the arrays -/

/-- Row p of the input's block at `t` is row 512·i + p of the input. -/
theorem feature_row (c : Dev nD) (t : Fin cfg0.N) (p : Fin 512) (k : Fin 2048) (b : Fin 4096)
    (hb : b.val = win0_2.index t (0 : Fin 2) * 512 + p.val) :
    (iblk m c 0 t : Vec Ideal S512x2048 .f32) (ix2 p k) = (V m c main_arg0 : S4096x2048.Idx → EReal) (ix2 b k) := by
  obtain ⟨e0, e1, -⟩ := idx_facts t
  show V m c main_arg0 (((cfg0.win 0).blk t).view.emb (ix2 p k)) = V m c main_arg0 (ix2 b k)
  refine congrArg (V m c main_arg0) (funext fun a => Fin.ext ?_)
  match a with
  | ⟨0, _⟩ => show win0_0.index t (0 : Fin 2) * 512 + 1 * p.val = b.val; omega
  | ⟨1, _⟩ => show win0_0.index t (1 : Fin 2) * 2048 + 1 * k.val = k.val; omega

/-- Row p of the state's block at `t` is row 512·i + p of the state. -/
theorem state_row (c : Dev nD) (t : Fin cfg0.N) (p : Fin 512) (k : Fin 2048) (b : Fin 4096)
    (hb : b.val = win0_2.index t (0 : Fin 2) * 512 + p.val) :
    (iblk m c 1 t : Vec Ideal S512x2048 .f32) (ix2 p k) = (V m c main_arg1 : S4096x2048.Idx → EReal) (ix2 b k) := by
  obtain ⟨-, -, e2, e3, -⟩ := idx_facts t
  show V m c main_arg1 (((cfg0.win 1).blk t).view.emb (ix2 p k)) = V m c main_arg1 (ix2 b k)
  refine congrArg (V m c main_arg1) (funext fun a => Fin.ext ?_)
  match a with
  | ⟨0, _⟩ => show win0_1.index t (0 : Fin 2) * 512 + 1 * p.val = b.val; omega
  | ⟨1, _⟩ => show win0_1.index t (1 : Fin 2) * 2048 + 1 * k.val = k.val; omega

/-- Entry y of the cell's block at `t` is entry (512·i + y₀, 256·j + y₁) of the cell. -/
theorem cell_entry (c : Dev nD) (t : Fin cfg0.N) (y : S512x256.Idx) (b : Fin 4096) (h : Fin 2048)
    (hb : b.val = win0_2.index t (0 : Fin 2) * 512 + (y 0).val) (hh : h.val = win0_2.index t (1 : Fin 2) * 256 + (y 1).val) :
    (iblk m c 2 t : Vec Ideal S512x256 .f32) y = (V m c main_arg2 : S4096x2048.Idx → EReal) (ix2 b h) := by
  show V m c main_arg2 (((cfg0.win 2).blk t).view.emb y) = V m c main_arg2 (ix2 b h)
  refine congrArg (V m c main_arg2) (funext fun a => Fin.ext ?_)
  match a with
  | ⟨0, _⟩ => show win0_2.index t (0 : Fin 2) * 512 + 1 * (y 0).val = b.val; omega
  | ⟨1, _⟩ => show win0_2.index t (1 : Fin 2) * 256 + 1 * (y 1).val = h.val; omega

/-- Row (g, q) of the input weights' block at `t` is row (g, 256·j + q) of the input weights. -/
theorem in_weight_row (c : Dev nD) (t : Fin cfg0.N) (g : Fin 4) (q : Fin 256) (k : Fin 2048) (h : Fin 2048)
    (hh : h.val = win0_2.index t (1 : Fin 2) * 256 + q.val) :
    (iblk m c 3 t : Vec Ideal S4x256x2048 .f32) (ix3 g q k) = (V m c main_arg3 : S4x2048x2048.Idx → EReal) (ix3 g h k) := by
  obtain ⟨-, -, -, -, e4, e5, e6, -⟩ := idx_facts t
  show V m c main_arg3 (((cfg0.win 3).blk t).view.emb (ix3 g q k)) = V m c main_arg3 (ix3 g h k)
  refine congrArg (V m c main_arg3) (funext fun a => Fin.ext ?_)
  match a with
  | ⟨0, _⟩ => show win0_3.index t (0 : Fin 3) * 4 + 1 * g.val = g.val; omega
  | ⟨1, _⟩ => show win0_3.index t (1 : Fin 3) * 256 + 1 * q.val = h.val; omega
  | ⟨2, _⟩ => show win0_3.index t (2 : Fin 3) * 2048 + 1 * k.val = k.val; omega

/-- Row (g, q) of the recurrent weights' block at `t` is row (g, 256·j + q) of the recurrent weights. -/
theorem rec_weight_row (c : Dev nD) (t : Fin cfg0.N) (g : Fin 4) (q : Fin 256) (k : Fin 2048) (h : Fin 2048)
    (hh : h.val = win0_2.index t (1 : Fin 2) * 256 + q.val) :
    (iblk m c 4 t : Vec Ideal S4x256x2048 .f32) (ix3 g q k) = (V m c main_arg4 : S4x2048x2048.Idx → EReal) (ix3 g h k) := by
  obtain ⟨-, -, -, -, -, -, -, e7, e8, e9, -⟩ := idx_facts t
  show V m c main_arg4 (((cfg0.win 4).blk t).view.emb (ix3 g q k)) = V m c main_arg4 (ix3 g h k)
  refine congrArg (V m c main_arg4) (funext fun a => Fin.ext ?_)
  match a with
  | ⟨0, _⟩ => show win0_4.index t (0 : Fin 3) * 4 + 1 * g.val = g.val; omega
  | ⟨1, _⟩ => show win0_4.index t (1 : Fin 3) * 256 + 1 * q.val = h.val; omega
  | ⟨2, _⟩ => show win0_4.index t (2 : Fin 3) * 2048 + 1 * k.val = k.val; omega

/-! ## What each point writes back -/

/-- What point `t` writes back to the new state's array is block `t` of `Lstm.newState` of the argument arrays. -/
theorem flushed_state (c : Dev nD) (t : Fin cfg0.N) :
    (dats m 0 c).flushed 5 t = ((cfg0.win 5).blk t).view.read (Elt Ideal) (Lstm.newState (V m c main_arg0) (V m c main_arg1) (V m c main_arg2) (V m c main_arg3) (V m c main_arg4)) := by
  rw [Value.flushed5]
  unfold out0_5
  rw [View.canon_unit_zero hz2]
  simp only [View.ld_unit_zero (S := S512x2048) hz2, View.ld_unit_zero (S := S512x256) hz2, View.ld_unit_zero (S := S4x256x2048) hz3]
  obtain ⟨e0, e1, e2, e3, e4, e5, e6, e7, e8, e9, e10, e11, e12, e13, e14, e15⟩ := idx_facts t
  funext y
  refine (Point.state_block (iblk m c 0 t) (iblk m c 1 t) (iblk m c 2 t) (iblk m c 3 t) (iblk m c 4 t) y).trans ?_
  show _ = Lstm.newState (V m c main_arg0) (V m c main_arg1) (V m c main_arg2) (V m c main_arg3) (V m c main_arg4) (((cfg0.win 5).blk t).view.emb y)
  unfold Lstm.newState Lstm.newStateAt
  refine Lstm.stateOf_congr (funext fun k => ?_) (funext fun k => ?_) ?_ (funext fun g => funext fun k => ?_) (funext fun g => funext fun k => ?_)
  · exact feature_row m c t (y 0) k _ (by show win0_5.index t (0 : Fin 2) * 512 + 1 * (y 0).val = _; omega)
  · exact state_row m c t (y 0) k _ (by show win0_5.index t (0 : Fin 2) * 512 + 1 * (y 0).val = _; omega)
  · exact cell_entry m c t y _ _ (by show win0_5.index t (0 : Fin 2) * 512 + 1 * (y 0).val = _; omega)
      (by show win0_5.index t (1 : Fin 2) * 256 + 1 * (y 1).val = _; omega)
  · exact in_weight_row m c t g (y 1) k _ (by show win0_5.index t (1 : Fin 2) * 256 + 1 * (y 1).val = _; omega)
  · exact rec_weight_row m c t g (y 1) k _ (by show win0_5.index t (1 : Fin 2) * 256 + 1 * (y 1).val = _; omega)

/-- What point `t` writes back to the new cell's array is block `t` of `Lstm.newCell` of the argument arrays. -/
theorem flushed_cell (c : Dev nD) (t : Fin cfg0.N) :
    (dats m 0 c).flushed 6 t = ((cfg0.win 6).blk t).view.read (Elt Ideal) (Lstm.newCell (V m c main_arg0) (V m c main_arg1) (V m c main_arg2) (V m c main_arg3) (V m c main_arg4)) := by
  rw [Value.flushed6]
  unfold out0_6
  rw [View.canon_unit_zero hz2]
  simp only [View.ld_unit_zero (S := S512x2048) hz2, View.ld_unit_zero (S := S512x256) hz2, View.ld_unit_zero (S := S4x256x2048) hz3]
  obtain ⟨e0, e1, e2, e3, e4, e5, e6, e7, e8, e9, e10, e11, e12, e13, e14, e15⟩ := idx_facts t
  funext y
  refine (Point.cell_block (iblk m c 0 t) (iblk m c 1 t) (iblk m c 2 t) (iblk m c 3 t) (iblk m c 4 t) y).trans ?_
  show _ = Lstm.newCell (V m c main_arg0) (V m c main_arg1) (V m c main_arg2) (V m c main_arg3) (V m c main_arg4) (((cfg0.win 6).blk t).view.emb y)
  unfold Lstm.newCell Lstm.newCellAt
  refine Lstm.cellOf_congr (funext fun k => ?_) (funext fun k => ?_) ?_ (funext fun g => funext fun k => ?_) (funext fun g => funext fun k => ?_)
  · exact feature_row m c t (y 0) k _ (by show win0_6.index t (0 : Fin 2) * 512 + 1 * (y 0).val = _; omega)
  · exact state_row m c t (y 0) k _ (by show win0_6.index t (0 : Fin 2) * 512 + 1 * (y 0).val = _; omega)
  · exact cell_entry m c t y _ _ (by show win0_6.index t (0 : Fin 2) * 512 + 1 * (y 0).val = _; omega)
      (by show win0_6.index t (1 : Fin 2) * 256 + 1 * (y 1).val = _; omega)
  · exact in_weight_row m c t g (y 1) k _ (by show win0_6.index t (1 : Fin 2) * 256 + 1 * (y 1).val = _; omega)
  · exact rec_weight_row m c t g (y 1) k _ (by show win0_6.index t (1 : Fin 2) * 256 + 1 * (y 1).val = _; omega)

/-! ## The blocks tile the arrays -/

/-- An index of the array is in point `t`'s block iff each coordinate is in the block's range on its axis. -/
theorem mem_blk_state (t : Fin cfg0.N) (i : S4096x2048.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v0_0).slice (win0_5.rect t)).set ↔ _
  rw [View.set_slice_whole, Rect.mem_set_unit]
  exact Iff.rfl

/-- Every index of the array lies in the block of the point at batch tile (row / 512) and hidden tile (column / 256). -/
theorem cover_state (i : S4096x2048.Idx) :
    ∃ t : Fin cfg0.N, (cfg0.win 5).flush t = true ∧ i ∈ ((cfg0.win 5).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_2.index t (0 : Fin 2) = (i 0).val / 512 := congrFun ht 0
  have q1 : win0_2.index t (1 : Fin 2) = (i 1).val / 256 := congrFun ht 1
  obtain ⟨e0, e1, e2, e3, e4, e5, e6, e7, e8, e9, e10, e11, e12, e13, e14, e15⟩ := idx_facts t
  refine ⟨t, flush0_5 t, ?_⟩
  rw [mem_blk_state]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-- So the array ends holding the whole-array function. -/
theorem final_state (c : Dev nD) :
    (dats m 0 c).arrAt 5 cfg0.N = Lstm.newState (V m c main_arg0) (V m c main_arg1) (V m c main_arg2) (V m c main_arg3) (V m c main_arg4) :=
  (dats m 0 c).arrAt_eq_of_cover 5 _ (fun t _ => flushed_state m c t) cover_state

/-- An index of the array is in point `t`'s block iff each coordinate is in the block's range on its axis. -/
theorem mem_blk_cell (t : Fin cfg0.N) (i : S4096x2048.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v0_1).slice (win0_6.rect t)).set ↔ _
  rw [View.set_slice_whole, Rect.mem_set_unit]
  exact Iff.rfl

/-- Every index of the array lies in the block of the point at batch tile (row / 512) and hidden tile (column / 256). -/
theorem cover_cell (i : S4096x2048.Idx) :
    ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_2.index t (0 : Fin 2) = (i 0).val / 512 := congrFun ht 0
  have q1 : win0_2.index t (1 : Fin 2) = (i 1).val / 256 := congrFun ht 1
  obtain ⟨e0, e1, e2, e3, e4, e5, e6, e7, e8, e9, e10, e11, e12, e13, e14, e15⟩ := idx_facts t
  refine ⟨t, flush0_6 t, ?_⟩
  rw [mem_blk_cell]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

/-- So the array ends holding the whole-array function. -/
theorem final_cell (c : Dev nD) :
    (dats m 0 c).arrAt 6 cfg0.N = Lstm.newCell (V m c main_arg0) (V m c main_arg1) (V m c main_arg2) (V m c main_arg3) (V m c main_arg4) :=
  (dats m 0 c).arrAt_eq_of_cover 6 _ (fun t _ => flushed_cell m c t) cover_cell

/-! ## The run, read -/

/-- The frame run re-posted: the two result arrays at the LSTM step of the arguments, the arguments unchanged. -/
theorem run : θ_run defs (onTc (τ := τ) (main (F := Ideal))) ⟨m, fun _ => 0, ρ⟩ fun r => ∀ c : Dev nD,
      r.2.mem ((c : Thread nD τ).loc main_v0_0) = Lstm.newState (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = Lstm.newCell (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_state m c), (h c).2.1.trans (final_cell m c), (h c).2.2⟩)
    (Value.run_blocks m ρ)

end Cert.KernelIdeal.Whole

end
-- ==== Proof.RefStages.lean ====
/-
  The reference's stages, read at an element, are the same LSTM step.

  The reference forms the stacked logits as two `dot_general`s of a weight stack [4, 2048, 2048] against a feature array
  [4096, 2048] over the feature axis, each laid out (gate, hidden, batch) and transposed to (gate, batch, hidden), and adds
  them: at (g, b, h) that is Σ_k Win[g,h,k] · x[b,k] + Σ_k Wh[g,h,k] · st[b,k], the products' factors in the other order
  than the kernel's, and multiplication of extended reals is commutative (`logits_apply`). Each gate is a unit slice of
  that stack (`gate0_apply` … `gate3_apply`, the gate's logit at (b, h)); a sigmoid is spelt `1 / (1 + e^(-z))`, which is the logistic function on
  every extended real (`forget_apply`, `input_apply`, `output_apply`); the clip takes the maximum with `-1.0` and then the
  minimum with `1.0` (`cand_clip_apply`, `cell_clip_apply`). So the two results are `Lstm.newCell` and
  `Lstm.newState` of the arguments (`cell_eq`, `state_eq`).
-/
import proofs.«136638_j51969104281664_1_alg».proof.Proof.Gen.ReferenceIdeal.Read
import proofs.«136638_j51969104281664_1_alg».proof.Proof.LstmSpec

noncomputable section

namespace Cert.ReferenceIdeal.Stages

open Cert.ReferenceIdeal Cert.ReferenceIdeal.Gen Cert.ReferenceIdeal.Read Idealize.ShloMosaic Idealize.ShloMosaic.TcCoe
open Idealize.ShloMosaic.ValueIdx

variable (x0 x1 x2 : (⟨S4096x2048, .f32⟩ : BufTy).Contents (Elt Ideal)) (x3 x4 : (⟨S4x2048x2048, .f32⟩ : BufTy).Contents (Elt Ideal))

/-- The stacked logits at (gate g, batch row b, hidden unit h). -/
theorem logits_apply (g : Fin 4) (b : Fin 4096) (h : Fin 2048) :
    val_main_v4 (F := Ideal) x0 x1 x3 x4 (ix3 g b h)
      = Lstm.logit (fun k => x0 (ix2 b k)) (fun k => x1 (ix2 b k)) (fun k => x3 (ix3 g h k)) (fun k => x4 (ix3 g h k)) := by
  rw [val_main_v4_apply, val_main_v1_apply, val_main_v3_apply, val_main_v0_apply, val_main_v2_apply]
  unfold Lstm.logit
  show (∑ k : Fin 2048, _) + (∑ k : Fin 2048, _) = _
  congr 1 <;> refine Finset.sum_congr rfl fun k _ => ?_
  · rw [mul_comm]
    congr 1
    · exact congrArg x0 (funext fun a => Fin.ext (by match a with | ⟨0, _⟩ => rfl | ⟨1, _⟩ => rfl))
    · exact congrArg x3 (funext fun a => Fin.ext (by match a with | ⟨0, _⟩ => rfl | ⟨1, _⟩ => rfl | ⟨2, _⟩ => rfl))
  · rw [mul_comm]
    congr 1
    · exact congrArg x1 (funext fun a => Fin.ext (by match a with | ⟨0, _⟩ => rfl | ⟨1, _⟩ => rfl))
    · exact congrArg x4 (funext fun a => Fin.ext (by match a with | ⟨0, _⟩ => rfl | ⟨1, _⟩ => rfl | ⟨2, _⟩ => rfl))

/-- Gate 0's logit at (b, h): its [4096, 2048] array is the stacked logits at (0, ·, ·) — a unit slice along the gate
    axis, that axis dropped. -/
theorem gate0_apply (b : Fin 4096) (h : Fin 2048) :
    val_main_v6 (F := Ideal) x0 x1 x3 x4 (ix2 b h)
      = Lstm.logit (fun k => x0 (ix2 b k)) (fun k => x1 (ix2 b k)) (fun k => x3 (ix3 0 h k)) (fun k => x4 (ix3 0 h k)) := by
  rw [val_main_v6_apply, val_main_v5_apply]
  refine (congrArg (val_main_v4 (F := Ideal) x0 x1 x3 x4) (funext fun a => Fin.ext ?_)).trans (logits_apply x0 x1 x3 x4 0 b h)
  have h0 : b.val < 4096 := b.isLt
  have h1 : h.val < 2048 := h.isLt
  match a with
  | ⟨0, _⟩ => rfl
  | ⟨1, _⟩ => show (b.val * 2048 + h.val) / 2048 % 4096 = b.val; omega
  | ⟨2, _⟩ => show (b.val * 2048 + h.val) % 2048 = h.val; omega

/-- Gate 1's logit at (b, h): its [4096, 2048] array is the stacked logits at (1, ·, ·) — a unit slice along the gate
    axis, that axis dropped. -/
theorem gate1_apply (b : Fin 4096) (h : Fin 2048) :
    val_main_v14 (F := Ideal) x0 x1 x3 x4 (ix2 b h)
      = Lstm.logit (fun k => x0 (ix2 b k)) (fun k => x1 (ix2 b k)) (fun k => x3 (ix3 1 h k)) (fun k => x4 (ix3 1 h k)) := by
  rw [val_main_v14_apply, val_main_v13_apply]
  refine (congrArg (val_main_v4 (F := Ideal) x0 x1 x3 x4) (funext fun a => Fin.ext ?_)).trans (logits_apply x0 x1 x3 x4 1 b h)
  have h0 : b.val < 4096 := b.isLt
  have h1 : h.val < 2048 := h.isLt
  match a with
  | ⟨0, _⟩ => rfl
  | ⟨1, _⟩ => show (b.val * 2048 + h.val) / 2048 % 4096 = b.val; omega
  | ⟨2, _⟩ => show (b.val * 2048 + h.val) % 2048 = h.val; omega

/-- Gate 2's logit at (b, h): its [4096, 2048] array is the stacked logits at (2, ·, ·) — a unit slice along the gate
    axis, that axis dropped. -/
theorem gate2_apply (b : Fin 4096) (h : Fin 2048) :
    val_main_v22 (F := Ideal) x0 x1 x3 x4 (ix2 b h)
      = Lstm.logit (fun k => x0 (ix2 b k)) (fun k => x1 (ix2 b k)) (fun k => x3 (ix3 2 h k)) (fun k => x4 (ix3 2 h k)) := by
  rw [val_main_v22_apply, val_main_v21_apply]
  refine (congrArg (val_main_v4 (F := Ideal) x0 x1 x3 x4) (funext fun a => Fin.ext ?_)).trans (logits_apply x0 x1 x3 x4 2 b h)
  have h0 : b.val < 4096 := b.isLt
  have h1 : h.val < 2048 := h.isLt
  match a with
  | ⟨0, _⟩ => rfl
  | ⟨1, _⟩ => show (b.val * 2048 + h.val) / 2048 % 4096 = b.val; omega
  | ⟨2, _⟩ => show (b.val * 2048 + h.val) % 2048 = h.val; omega

/-- Gate 3's logit at (b, h): its [4096, 2048] array is the stacked logits at (3, ·, ·) — a unit slice along the gate
    axis, that axis dropped. -/
theorem gate3_apply (b : Fin 4096) (h : Fin 2048) :
    val_main_v30 (F := Ideal) x0 x1 x3 x4 (ix2 b h)
      = Lstm.logit (fun k => x0 (ix2 b k)) (fun k => x1 (ix2 b k)) (fun k => x3 (ix3 3 h k)) (fun k => x4 (ix3 3 h k)) := by
  rw [val_main_v30_apply, val_main_v29_apply]
  refine (congrArg (val_main_v4 (F := Ideal) x0 x1 x3 x4) (funext fun a => Fin.ext ?_)).trans (logits_apply x0 x1 x3 x4 3 b h)
  have h0 : b.val < 4096 := b.isLt
  have h1 : h.val < 2048 := h.isLt
  match a with
  | ⟨0, _⟩ => rfl
  | ⟨1, _⟩ => show (b.val * 2048 + h.val) / 2048 % 4096 = b.val; omega
  | ⟨2, _⟩ => show (b.val * 2048 + h.val) % 2048 = h.val; omega

/-- The forget gate: `1 / (1 + e^(-z))` spelt out in the host's operations is the logistic function of the logit. -/
theorem forget_apply (i : S4096x2048.Idx) :
    val_main_v12 (F := Ideal) x0 x1 x3 x4 i = Ideal.logistic (val_main_v6 (F := Ideal) x0 x1 x3 x4 i) := by
  rw [val_main_v12_apply, val_main_v11_apply, val_main_cst_0_apply, val_main_v10_apply, val_main_v9_apply,
    val_main_cst_apply, val_main_v8_apply, val_main_v7_apply]
  show Ideal.div (Ideal.ofBits .f32 0x3F800000#32) (Ideal.ofBits .f32 0x3F800000#32 + Ideal.exp (-(val_main_v6 (F := Ideal) x0 x1 x3 x4 i))) = _
  rw [Lstm.ofBits_one]
  rfl

/-- The input gate: `1 / (1 + e^(-z))` spelt out in the host's operations is the logistic function of the logit. -/
theorem input_apply (i : S4096x2048.Idx) :
    val_main_v20 (F := Ideal) x0 x1 x3 x4 i = Ideal.logistic (val_main_v14 (F := Ideal) x0 x1 x3 x4 i) := by
  rw [val_main_v20_apply, val_main_v19_apply, val_main_cst_2_apply, val_main_v18_apply, val_main_v17_apply,
    val_main_cst_1_apply, val_main_v16_apply, val_main_v15_apply]
  show Ideal.div (Ideal.ofBits .f32 0x3F800000#32) (Ideal.ofBits .f32 0x3F800000#32 + Ideal.exp (-(val_main_v14 (F := Ideal) x0 x1 x3 x4 i))) = _
  rw [Lstm.ofBits_one]
  rfl

/-- The output gate: `1 / (1 + e^(-z))` spelt out in the host's operations is the logistic function of the logit. -/
theorem output_apply (i : S4096x2048.Idx) :
    val_main_v28 (F := Ideal) x0 x1 x3 x4 i = Ideal.logistic (val_main_v22 (F := Ideal) x0 x1 x3 x4 i) := by
  rw [val_main_v28_apply, val_main_v27_apply, val_main_cst_4_apply, val_main_v26_apply, val_main_v25_apply,
    val_main_cst_3_apply, val_main_v24_apply, val_main_v23_apply]
  show Ideal.div (Ideal.ofBits .f32 0x3F800000#32) (Ideal.ofBits .f32 0x3F800000#32 + Ideal.exp (-(val_main_v22 (F := Ideal) x0 x1 x3 x4 i))) = _
  rw [Lstm.ofBits_one]
  rfl

/-- The clipped candidate. -/
theorem cand_clip_apply (i : S4096x2048.Idx) :
    val_main_v31 (F := Ideal) x0 x1 x3 x4 i = Lstm.clip (val_main_v30 (F := Ideal) x0 x1 x3 x4 i) := by
  rw [val_main_v31_apply, val_main_call0_v4_apply, val_main_call0_v3_apply, val_main_cst_6_apply, val_main_call0_v2_apply,
    val_main_call0_v1_apply, val_main_call0_v0_apply, val_main_cst_5_apply]
  rfl

/-- The clipped new cell. -/
theorem cell_clip_apply (i : S4096x2048.Idx) :
    val_main_v35 (F := Ideal) x0 x1 x2 x3 x4 i = Lstm.clip (val_main_v34 (F := Ideal) x0 x1 x2 x3 x4 i) := by
  rw [val_main_v35_apply, val_main_call1_v4_apply, val_main_call1_v3_apply, val_main_cst_8_apply, val_main_call1_v2_apply,
    val_main_call1_v1_apply, val_main_call1_v0_apply, val_main_cst_7_apply]
  rfl

/-- The reference's second result is the new cell array. -/
theorem cell_eq : val_main_v34 (F := Ideal) x0 x1 x2 x3 x4 = Lstm.newCell x0 x1 x2 x3 x4 := by
  funext i
  obtain ⟨b, h, rfl⟩ : ∃ (b : Fin 4096) (h : Fin 2048), i = ix2 b h := ⟨i 0, i 1, eq_ix2 i⟩
  rw [val_main_v34_apply, val_main_v32_apply, val_main_v33_apply, forget_apply, input_apply, cand_clip_apply,
    gate0_apply, gate1_apply, gate3_apply]
  rfl

/-- The reference's first result is the new state array. -/
theorem state_eq : val_main_v36 (F := Ideal) x0 x1 x2 x3 x4 = Lstm.newState x0 x1 x2 x3 x4 := by
  funext i
  obtain ⟨b, h, rfl⟩ : ∃ (b : Fin 4096) (h : Fin 2048), i = ix2 b h := ⟨i 0, i 1, eq_ix2 i⟩
  rw [val_main_v36_apply, output_apply, cell_clip_apply, gate2_apply, cell_eq]
  rfl

end Cert.ReferenceIdeal.Stages

end
-- ==== Proof.lean ====
/-
  An LSTM cell step with clipped (hard) tanh, tiled 8 × 8 over (hidden tile, batch tile), against its plain jnp form.

  For batch row b and hidden unit h, with the four gates' weights stacked (forget, input, output, candidate),
      z_g   = Σ_k x[b,k] · W_in[g,h,k] + Σ_k state[b,k] · W_h[g,h,k]            (g = 0, 1, 2, 3)
      cell' = σ(z_0) · cell[b,h] + σ(z_1) · clip(z_3)
      state' = σ(z_2) · clip(cell'),          σ(z) = 1 / (1 + e^(-z)),   clip(z) = min(1, max(-1, z)).
  `Lstm.newCell` and `Lstm.newState` (Proof/LstmSpec.lean) are these two arrays as functions of the five arguments.

  The kernel computes, per grid point, a [512, 256] block of each result from row blocks of x and state, one block of
  cell and a [4, 256, 2048] slab of each weight stack: eight matrix products over the feature axis into zero
  accumulators, the logistic function, two clips. Read at an element this is the formula above over the blocks' rows
  (Proof/KernelPoint.lean); the blocks' rows are rows of the arrays, and the 64 written blocks tile [4096, 2048], so the
  result arrays end at `Lstm.newState` and `Lstm.newCell` of the arguments (Proof/KernelWhole.lean, over the generated
  frame run with its output arrays named). The reference forms all four logits at once by two batched products laid
  out (gate, hidden, batch), transposes, adds, slices each gate out, spells each sigmoid as 1 / (1 + e^(-z)) and each
  clip as a maximum then a minimum; read at an element it is the same formula, the factors of each product in the other
  order (Proof/RefStages.lean, over the generated stage-by-stage reading of the reference's run). At the extended reals
  the change of float format is the identity, a product into a zero accumulator is the plain sum, the logistic function
  is 1 / (1 + e^(-z)) at every extended real, and multiplication is commutative: nothing here needs the inputs finite.

  The three frames are the generated ones (the reference's: its generated run with the results dropped); the
  idealization rewrote nothing, so `preserves` is `True`.
-/
import proofs.«136638_j51969104281664_1_alg».proof.Defs
import proofs.«136638_j51969104281664_1_alg».proof.Proof.Gen.Kernel
import proofs.«136638_j51969104281664_1_alg».proof.Proof.Gen.Kernel.Skeleton
import proofs.«136638_j51969104281664_1_alg».proof.Proof.Gen.Kernel.Launch
import proofs.«136638_j51969104281664_1_alg».proof.Proof.Gen.Kernel.Points
import proofs.«136638_j51969104281664_1_alg».proof.Proof.Gen.Kernel.Frame
import proofs.«136638_j51969104281664_1_alg».proof.Proof.Gen.KernelIdeal
import proofs.«136638_j51969104281664_1_alg».proof.Proof.Gen.KernelIdeal.Skeleton
import proofs.«136638_j51969104281664_1_alg».proof.Proof.Gen.KernelIdeal.Launch
import proofs.«136638_j51969104281664_1_alg».proof.Proof.Gen.KernelIdeal.Points
import proofs.«136638_j51969104281664_1_alg».proof.Proof.Gen.KernelIdeal.Frame
import proofs.«136638_j51969104281664_1_alg».proof.Proof.Gen.ReferenceIdeal
import proofs.«136638_j51969104281664_1_alg».proof.Proof.Gen.Pre_finite_inputs
import proofs.«136638_j51969104281664_1_alg».proof.Proof.Gen.KernelIdeal.Value
import proofs.«136638_j51969104281664_1_alg».proof.Proof.Gen.ReferenceIdeal.Run
import proofs.«136638_j51969104281664_1_alg».proof.Proof.Gen.ReferenceIdeal.Read
import proofs.«136638_j51969104281664_1_alg».proof.Proof.LstmSpec
import proofs.«136638_j51969104281664_1_alg».proof.Proof.KernelPoint
import proofs.«136638_j51969104281664_1_alg».proof.Proof.KernelWhole
import proofs.«136638_j51969104281664_1_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- Both programs end with the new state and the new cell of the LSTM step of their (agreeing) arguments. -/
theorem algebraic : Cert.algebraic_KernelIdeal_ReferenceIdeal := by
  intro m ρ m' ρ' _ hagree
  refine ⟨fun c => Lstm.newState (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Lstm.newCell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v36_eq, Cert.ReferenceIdeal.Stages.state_eq,
      (hagree c).1, (hagree c).2.1, (hagree c).2.2.1, (hagree c).2.2.2.1, (hagree c).2.2.2.2]
  · rw [Cert.ReferenceIdeal.Read.val_main_v34_eq, Cert.ReferenceIdeal.Stages.cell_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
